-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S1024x1024 : Shape := ⟨2, ![1024, 1024]⟩
abbrev S1024x32768 : Shape := ⟨2, ![1024, 32768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S1024x32768, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S_S1024x1024 : S_.BroadcastsInDim S1024x1024 (![] : Fin 0 → Fin S1024x1024.rank)
  dot_S32768x1024_S1024x1024_S32768x1024_1_0_0_1_n_n_wf : DotDims.WF S32768x1024 S1024x1024 S32768x1024 [1] [0] [0] [1] [] []
  dot_S1024x32768_S32768x1024_S1024x1024_1_0_0_1_n_n_wf : DotDims.WF S1024x32768 S32768x1024 S1024x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S1024x32768_S32768x1024_S1024x1024_1_0_0_1_n_n : DotDims S1024x32768 S32768x1024 S1024x1024 where
  lhsContracting := [1]
  rhsContracting := [0]
  lhsNonContracting := [0]
  rhsNonContracting := [1]
  lhsBatch := []
  rhsBatch := []
  wf := dot_S1024x32768_S32768x1024_S1024x1024_1_0_0_1_n_n_wf

class Facts : Prop extends Facts₀ where

variable [Facts]
-- ==== Proof.Pieces.lean ====
/-
  What each control case of the kernel body leaves in its buffers, as the body's pure terms.

  The body has three cases: the first grid point (the accumulator is zeroed, then updated), the middle points (updated),
  and the last point (updated, then the clipped weights are stored). In every case the hidden tile written to the first
  output is tanh (x_tile · W); the accumulator is left at (what it held, or zero at the first point) + x_tileᵀ · hidden_tile;
  and at the last point the second output is the clip of W + scale · accumulator, read AFTER that point's update.
  Each store covers its whole buffer, so what a buffer holds after the body is the payload of the last store into it.
-/
import proofs.«140127_j23871428232070_1_alg».proof.Proof.Gen.KernelIdeal.Frame
import Idealize.ShloMosaic.Lib.Pipeline.Value
import Idealize.ShloMosaic.Lib.Tactic

set_option maxRecDepth 16384

noncomputable section

namespace Cert.KernelIdeal.Hebb

open Cert.KernelIdeal Cert.KernelIdeal.Gen Idealize.ShloMosaic Idealize.ShloMosaic.TcCoe Idealize.ShloMosaic.Tactic Idealize.SL.Sem

variable {F : FTy → Type} [FloatOps F]

/-- The offsets of every load and store of the body: the origin. -/
theorem hz : (![0, 0] : Fin 2 → Nat) = fun _ => 0 := funext fun a => by fin_cases a <;> rfl

/-- First point: the hidden tile is tanh (x_tile · W). -/
theorem hiddenTile_first (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 : Vec F S512x1024 .f32) (x1 : Vec F S1024x1024 .f32) :
    out0_A_2 c i arg1 harg1 arg2 harg2 arg3 harg3 arg4 harg4 arg5 harg5 hc0 hc1 x0 x1 = k0_pay3 x0 x1 := by
  unfold out0_A_2
  rw [View.read_writes_eq_canon _ _ _ (cover0_A_2 c i arg1 harg1 arg2 harg2 arg3 harg3 arg4 harg4 arg5 harg5 hc0 hc1 x0 x1)]
  unfold kernelRun0_A
  dsimp only
  sl_unfold_words
  rw [View.canon_unit_zero (S := S512x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- Middle points: the hidden tile is tanh (x_tile · W). -/
theorem hiddenTile_middle (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : ¬cond0_1 i)
    (x0 : Vec F S512x1024 .f32) (x1 : Vec F S1024x1024 .f32) (xs0 : Vec F S1024x1024 .f32) :
    out0_B_2 c i arg1 harg1 arg2 harg2 arg3 harg3 arg4 harg4 arg5 harg5 hc0 hc1 x0 x1 xs0 = k0_pay3 x0 x1 := by
  unfold out0_B_2
  rw [View.read_writes_eq_canon _ _ _ (cover0_B_2 c i arg1 harg1 arg2 harg2 arg3 harg3 arg4 harg4 arg5 harg5 hc0 hc1 x0 x1 xs0)]
  unfold kernelRun0_B
  dsimp only
  sl_unfold_words
  rw [View.canon_unit_zero (S := S512x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- Last point: the hidden tile is tanh (x_tile · W). -/
theorem hiddenTile_last (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S512x1024 .f32) (x1 : Vec F S1024x1024 .f32) (xs0 : Vec F S1024x1024 .f32) :
    out0_C_2 c i arg1 harg1 arg2 harg2 arg3 harg3 arg4 harg4 arg5 harg5 hc0 hc1 x0 x1 xs0 = k0_pay3 x0 x1 := by
  unfold out0_C_2
  rw [View.read_writes_eq_canon _ _ _ (cover0_C_2 c i arg1 harg1 arg2 harg2 arg3 harg3 arg4 harg4 arg5 harg5 hc0 hc1 x0 x1 xs0)]
  unfold kernelRun0_C
  dsimp only
  sl_unfold_words
  rw [View.canon_unit_zero (S := S512x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- First point: the accumulator is zeroed and then updated, so it ends at 0 + x_tileᵀ · hidden_tile. -/
theorem acc_first (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 : Vec F S512x1024 .f32) (x1 : Vec F S1024x1024 .f32) :
    sout0_A_0 c i arg1 harg1 arg2 harg2 arg3 harg3 arg4 harg4 arg5 harg5 hc0 hc1 x0 x1 = k0_pay4 x0 x1 (k0_pay1 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1024x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- Middle points: the accumulator ends at what the point before left plus x_tileᵀ · hidden_tile. -/
theorem acc_middle (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : ¬cond0_1 i)
    (x0 : Vec F S512x1024 .f32) (x1 : Vec F S1024x1024 .f32) (xs0 : Vec F S1024x1024 .f32) :
    sout0_B_0 c i arg1 harg1 arg2 harg2 arg3 harg3 arg4 harg4 arg5 harg5 hc0 hc1 x0 x1 xs0 = k0_pay4 x0 x1 xs0 := by
  unfold sout0_B_0
  rw [View.read_writes_eq_canon _ _ _ (scover0_B_0 c i arg1 harg1 arg2 harg2 arg3 harg3 arg4 harg4 arg5 harg5 hc0 hc1 x0 x1 xs0)]
  unfold kernelRun0_B
  dsimp only
  sl_unfold_words
  rw [View.canon_unit_zero (S := S1024x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- Last point: the same update of the accumulator. -/
theorem acc_last (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S512x1024 .f32) (x1 : Vec F S1024x1024 .f32) (xs0 : Vec F S1024x1024 .f32) :
    sout0_C_0 c i arg1 harg1 arg2 harg2 arg3 harg3 arg4 harg4 arg5 harg5 hc0 hc1 x0 x1 xs0 = k0_pay4 x0 x1 xs0 := by
  unfold sout0_C_0
  rw [View.read_writes_eq_canon _ _ _ (scover0_C_0 c i arg1 harg1 arg2 harg2 arg3 harg3 arg4 harg4 arg5 harg5 hc0 hc1 x0 x1 xs0)]
  unfold kernelRun0_C
  dsimp only
  sl_unfold_words
  rw [View.canon_unit_zero (S := S1024x1024) hz]
  simp only [View.readAt_eq_ld, harg1.read_unread, harg2.read_unread, harg5.read_unread, View.ld_unit_zero (S := S512x1024) hz, View.ld_unit_zero (S := S1024x1024) hz, View.readCov_unit_zero (S := S1024x1024) _ hz]

/-- Last point: the second output is the clip of W + scale · (the accumulator after this point's update). -/
theorem newWeights_last (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S512x1024 .f32) (x1 : Vec F S1024x1024 .f32) (xs0 : Vec F S1024x1024 .f32) :
    out0_C_3 c i arg1 harg1 arg2 harg2 arg3 harg3 arg4 harg4 arg5 harg5 hc0 hc1 x0 x1 xs0 = k0_pay5 x1 (k0_pay4 x0 x1 xs0) := by
  unfold out0_C_3
  rw [View.read_writes_eq_canon _ _ _ (cover0_C_3 c i arg1 harg1 arg2 harg2 arg3 harg3 arg4 harg4 arg5 harg5 hc0 hc1 x0 x1 xs0)]
  unfold kernelRun0_C
  dsimp only
  sl_unfold_words
  rw [View.canon_unit_zero (S := S1024x1024) hz]
  simp only [View.readAt_eq_ld, harg1.read_unread, harg2.read_unread, harg5.read_unread, View.ld_unit_zero (S := S512x1024) hz, View.ld_unit_zero (S := S1024x1024) hz, View.readCov_unit_zero (S := S1024x1024) _ hz]

end Cert.KernelIdeal.Hebb

end
-- ==== Proof.Payloads.lean ====
/-
  The kernel body's arithmetic read at an index, over the extended reals.

  At the ideal instance a change of float format is the identity and a matrix product into a zero accumulator is the plain
  sum of products over the contracted axis. So, for a tile x (512 rows of the batch) and the weights W:
    * the hidden tile is            hid (p, q) = tanh (Σ_k x (p, k) · W (k, q));
    * the accumulator's update is   acc (i, h) + Σ_p x (p, i) · hid (p, h)   — the product xᵀ · hid contracts the ROW axis of both;
    * the reset stores              0;
    * the final store is            min 1 (max (-1) (W j + scale · acc j)), the three literals kept as their binary words.
-/
import proofs.«140127_j23871428232070_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hebb

open Cert.KernelIdeal Cert.KernelIdeal.Gen Idealize.ShloMosaic Idealize.ShloMosaic.TcCoe Idealize.ShloMosaic.ValueIdx

/-! ## x · W: which entries of the operands meet at output entry (p, q) and contraction position k -/

theorem fwd_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem fwd_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem fwd_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem fwd_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The hidden tile at (p, q): tanh of row p of the tile against column q of the weights. -/
theorem hiddenTile_apply (x0 : Vec Ideal S512x1024 .f32) (x1 : Vec Ideal S1024x1024 .f32) (p : Fin 512) (q : Fin 1024) :
    k0_pay3 (F := Ideal) x0 x1 (ix2 p q) = Ideal.tanh (∑ k : Fin 1024, x0 (ix2 p k) * x1 (ix2 k q)) := by
  unfold k0_pay3 k0_pay2
  show Ideal.tanh (FloatOps.matmul (F := Ideal) dot_S512x1024_S1024x1024_S512x1024_1_0_0_1_n_n none (truncf .bf16 x0 bitsLt_bf16_f32) (truncf .bf16 x1 bitsLt_bf16_f32) (constant S512x1024 .f32 0x00000000#32) (ix2 p q)) = _
  rw [Ideal.matmul_constant_zero_apply, ← Equiv.sum_comp (contrEquiv1 dot_S512x1024_S1024x1024_S512x1024_1_0_0_1_n_n 1024 rfl rfl).symm]
  refine congrArg Ideal.tanh (Finset.sum_congr rfl fun k _ => ?_)
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact fwd_lhs_0 _ _
    | ⟨1, _⟩ => exact (fwd_lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (fwd_rhs_0 _ _).trans hk
    | ⟨1, _⟩ => exact fwd_rhs_1 _ _)
  show x0 (dot_S512x1024_S1024x1024_S512x1024_1_0_0_1_n_n.lhsIdx (ix2 p q) ((contrEquiv1 dot_S512x1024_S1024x1024_S512x1024_1_0_0_1_n_n 1024 rfl rfl).symm k)) * x1 (dot_S512x1024_S1024x1024_S512x1024_1_0_0_1_n_n.rhsIdx (ix2 p q) ((contrEquiv1 dot_S512x1024_S1024x1024_S512x1024_1_0_0_1_n_n 1024 rfl rfl).symm k)) = _
  rw [el, er]

/-! ## xᵀ · hid: the contraction runs over the tile's rows, axis 0 of BOTH operands -/

theorem upd_lhs_0 (j : S1024x1024.Idx) (q : dot_S512x1024_S512x1024_S1024x1024_0_0_1_1_n_n.contr.Idx) :
    (dot_S512x1024_S512x1024_S1024x1024_0_0_1_1_n_n.lhsIdx j q 0).val = (q ⟨0, by decide⟩).val :=
  dot_S512x1024_S512x1024_S1024x1024_0_0_1_1_n_n.lhsIdx_val_of_single rfl j q
theorem upd_lhs_1 (j : S1024x1024.Idx) (q : dot_S512x1024_S512x1024_S1024x1024_0_0_1_1_n_n.contr.Idx) :
    (dot_S512x1024_S512x1024_S1024x1024_0_0_1_1_n_n.lhsIdx j q 1).val = (j 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem upd_rhs_0 (j : S1024x1024.Idx) (q : dot_S512x1024_S512x1024_S1024x1024_0_0_1_1_n_n.contr.Idx) :
    (dot_S512x1024_S512x1024_S1024x1024_0_0_1_1_n_n.rhsIdx j q 0).val = (q ⟨0, by decide⟩).val :=
  dot_S512x1024_S512x1024_S1024x1024_0_0_1_1_n_n.rhsIdx_val_of_single rfl j q
theorem upd_rhs_1 (j : S1024x1024.Idx) (q : dot_S512x1024_S512x1024_S1024x1024_0_0_1_1_n_n.contr.Idx) :
    (dot_S512x1024_S512x1024_S1024x1024_0_0_1_1_n_n.rhsIdx j q 1).val = (j 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The accumulator's update at (i, h): what it held there plus column i of the tile against column h of the hidden tile. -/
theorem accUpdate_apply (x0 : Vec Ideal S512x1024 .f32) (x1 : Vec Ideal S1024x1024 .f32) (acc : Vec Ideal S1024x1024 .f32)
    (i h : Fin 1024) :
    k0_pay4 (F := Ideal) x0 x1 acc (ix2 i h)
      = acc (ix2 i h) + ∑ p : Fin 512, x0 (ix2 p i) * k0_pay3 (F := Ideal) x0 x1 (ix2 p h) := by
  unfold k0_pay4 k0_pay2
  rw [shapeCast_self]
  show acc (ix2 i h) + FloatOps.matmul (F := Ideal) dot_S512x1024_S512x1024_S1024x1024_0_0_1_1_n_n none (truncf .bf16 x0 bitsLt_bf16_f32) (truncf .bf16 (k0_pay3 (F := Ideal) x0 x1) bitsLt_bf16_f32) (constant S1024x1024 .f32 0x00000000#32) (ix2 i h) = _
  rw [Ideal.matmul_constant_zero_apply, ← Equiv.sum_comp (contrEquiv1 dot_S512x1024_S512x1024_S1024x1024_0_0_1_1_n_n 512 rfl rfl).symm]
  refine congrArg (acc (ix2 i h) + ·) (Finset.sum_congr rfl fun k _ => ?_)
  have hk := contrEquiv1_symm_val dot_S512x1024_S512x1024_S1024x1024_0_0_1_1_n_n 512 rfl rfl k
  have el : dot_S512x1024_S512x1024_S1024x1024_0_0_1_1_n_n.lhsIdx (ix2 i h) ((contrEquiv1 dot_S512x1024_S512x1024_S1024x1024_0_0_1_1_n_n 512 rfl rfl).symm k) = ix2 k i := funext fun a => Fin.ext (by
    match a with
    | ⟨0, _⟩ => exact (upd_lhs_0 _ _).trans hk
    | ⟨1, _⟩ => exact upd_lhs_1 _ _)
  have er : dot_S512x1024_S512x1024_S1024x1024_0_0_1_1_n_n.rhsIdx (ix2 i h) ((contrEquiv1 dot_S512x1024_S512x1024_S1024x1024_0_0_1_1_n_n 512 rfl rfl).symm k) = ix2 k h := funext fun a => Fin.ext (by
    match a with
    | ⟨0, _⟩ => exact (upd_rhs_0 _ _).trans hk
    | ⟨1, _⟩ => exact upd_rhs_1 _ _)
  show x0 (dot_S512x1024_S512x1024_S1024x1024_0_0_1_1_n_n.lhsIdx (ix2 i h) ((contrEquiv1 dot_S512x1024_S512x1024_S1024x1024_0_0_1_1_n_n 512 rfl rfl).symm k)) * k0_pay3 (F := Ideal) x0 x1 (dot_S512x1024_S512x1024_S1024x1024_0_0_1_1_n_n.rhsIdx (ix2 i h) ((contrEquiv1 dot_S512x1024_S512x1024_S1024x1024_0_0_1_1_n_n 512 rfl rfl).symm k)) = _
  rw [el, er]

/-- The reset stores zero everywhere. -/
theorem reset_apply (j : S1024x1024.Idx) : k0_pay1 (F := Ideal) j = 0 := by
  unfold k0_pay1
  rw [shapeCast_self]
  exact Ideal.ofBits_zero_f32

/-- The final store at j: the clip to [-1, 1] of W j + scale · acc j. -/
theorem clip_apply (w a : Vec Ideal S1024x1024 .f32) (j : S1024x1024.Idx) :
    k0_pay5 (F := Ideal) w a j
      = min (Ideal.ofBits .f32 0x3F800000#32) (max (Ideal.ofBits .f32 0xBF800000#32) (w j + Ideal.ofBits .f32 0x34A3D70A#32 * a j)) := rfl

end Cert.KernelIdeal.Hebb

end
-- ==== Proof.Spec.lean ====
/-
  What the Hebbian step computes, as functions of the batch X [32768, 1024] and the weights W [1024, 1024] over the
  extended reals:

    hidden (b, h)  = tanh (Σ_k X (b, k) · W (k, h))                                   the forward pass  tanh (X · W)
    corr (i, h)    = Σ_b X (b, i) · hidden (b, h)                                     the correlation   Xᵀ · hidden
    updated (i, h) = min 1 (max (-1) (W (i, h) + scale · corr (i, h)))                the clipped update

  The three float literals (1, -1 and the learning-rate scale) are kept as their binary words: both programs spell the same
  words, so their values are never needed.
-/
import Idealize.ShloMosaic.Lib.ValueIdx

noncomputable section

open scoped BigOperators

namespace Hebbian

open Idealize.ShloMosaic Idealize.ShloMosaic.ValueIdx

/-- The batch's shape: 32768 samples of 1024 features. -/
abbrev SB : Shape := ⟨2, ![32768, 1024]⟩
/-- The weights' shape. -/
abbrev SW : Shape := ⟨2, ![1024, 1024]⟩

/-- The forward pass: tanh of the batch times the weights. -/
def hidden (X : SB.Idx → EReal) (W : SW.Idx → EReal) : SB.Idx → EReal :=
  fun i => Ideal.tanh (∑ k : Fin 1024, X (ix2 (i 0) k) * W (ix2 k (i 1)))

/-- The correlation of inputs and activations, summed over the whole batch. -/
def corr (X : SB.Idx → EReal) (W : SW.Idx → EReal) : SW.Idx → EReal :=
  fun j => ∑ b : Fin 32768, X (ix2 b (j 0)) * hidden X W (ix2 b (j 1))

/-- The clip to [-1, 1] of a value `v` moved by `scale · a`. -/
def clipStep (v a : EReal) : EReal :=
  min (Ideal.ofBits .f32 0x3F800000#32) (max (Ideal.ofBits .f32 0xBF800000#32) (v + Ideal.ofBits .f32 0x34A3D70A#32 * a))

/-- The new weights. -/
def updated (X : SB.Idx → EReal) (W : SW.Idx → EReal) : SW.Idx → EReal :=
  fun j => clipStep (W j) (corr X W j)

end Hebbian

end
-- ==== Proof.HiddenValue.lean ====
/-
  The first output: the hidden activations, tile by tile.

  Grid point t stages rows 512·t … 512·t + 511 of the batch (all 1024 features) and the whole weight matrix, and writes
  back the same rows of the first output. What it writes is tanh (x_tile · W), whichever control case the point is in;
  entry (p, q) of that tile is therefore entry (512·t + p, q) of `Hebbian.hidden` of the launch arrays. The 64 tiles
  cover the output, so after the run the whole array is `Hebbian.hidden X W`.
-/
import proofs.«140127_j23871428232070_1_alg».proof.Proof.Gen.KernelIdeal.Value
import proofs.«140127_j23871428232070_1_alg».proof.Proof.Pieces
import proofs.«140127_j23871428232070_1_alg».proof.Proof.Payloads
import proofs.«140127_j23871428232070_1_alg».proof.Proof.Spec

set_option maxRecDepth 16384

noncomputable section

namespace Cert.KernelIdeal.Hebb

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The batch as launched. -/
abbrev X0 (c : Dev nD) : Hebbian.SB.Idx → EReal := m ((c : Thread nD τ).loc main_arg0)
/-- The weights as launched. -/
abbrev W0 (c : Dev nD) : Hebbian.SW.Idx → EReal := m ((c : Thread nD τ).loc main_arg1)

/-- The block index of every window at every grid point: the batch's and the first output's row block is the point's
    number; the weights and the second output are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem lt64 (t : Fin cfg0.N) : t.val < 64 := lt_of_lt_of_eq t.isLt (show cfg0.N = 64 from N_0)

/-- Row p of tile t is row 512·t + p of the batch. -/
def tileRow (t : Fin cfg0.N) (p : Fin 512) : Fin 32768 := ⟨512 * t.val + p.val, by have := lt64 t; omega⟩

/-- The batch's tile at point t, entry (p, k): the batch at (512·t + p, k). -/
theorem xTile_apply (c : Dev nD) (t : Fin cfg0.N) (p : Fin 512) (k : Fin 1024) :
    (iblk m c 0 t : Vec Ideal S512x1024 .f32) (ix2 p k) = X0 m c (ix2 (tileRow t p) k) := by
  show V m c main_arg0 (((cfg0.win 0).blk t).view.emb (ix2 p k)) = V m c main_arg0 (ix2 (tileRow t p) k)
  refine congrArg (V m c main_arg0) (funext fun a => Fin.ext ?_)
  obtain ⟨e0, e1, -⟩ := idx_facts t
  match a with
  | ⟨0, _⟩ => show win0_0.index t (0 : Fin 2) * 512 + 1 * p.val = 512 * t.val + p.val; omega
  | ⟨1, _⟩ => show win0_0.index t (1 : Fin 2) * 1024 + 1 * k.val = k.val; omega

/-- The weights' one block is the whole matrix, at every point. -/
theorem wTile_eq (c : Dev nD) (t : Fin cfg0.N) : (iblk m c 1 t : Vec Ideal S1024x1024 .f32) = W0 m c := by
  funext y
  show V m c main_arg1 (((cfg0.win 1).blk t).view.emb y) = V m c main_arg1 y
  refine congrArg (V m c main_arg1) (funext fun a => Fin.ext ?_)
  obtain ⟨-, -, e2, e3, -⟩ := idx_facts t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The hidden tile of point t at (p, q) is the forward pass at (512·t + p, q). -/
theorem hiddenTile_eq (c : Dev nD) (t : Fin cfg0.N) (p : Fin 512) (q : Fin 1024) :
    k0_pay3 (F := Ideal) (iblk m c 0 t) (iblk m c 1 t) (ix2 p q)
      = Hebbian.hidden (X0 m c) (W0 m c) (ix2 (tileRow t p) q) := by
  refine (hiddenTile_apply (iblk m c 0 t) (iblk m c 1 t) p q).trans ?_
  show _ = Ideal.tanh (∑ k : Fin 1024, X0 m c (ix2 (tileRow t p) k) * W0 m c (ix2 k q))
  refine congrArg Ideal.tanh (Finset.sum_congr rfl fun k _ => ?_)
  exact congrArg₂ (· * ·) (xTile_apply m c t p k) (congrFun (wTile_eq m c t) (ix2 k q))

/-- Whatever its control case, point t leaves tanh (x_tile · W) in the first output's buffer. -/
theorem hiddenBuf_eq (c : Dev nD) (t : Fin cfg0.N) :
    (outsAt0 m c t.val t.isLt).1 = k0_pay3 (F := Ideal) (iblk m c 0 t) (iblk m c 1 t) := by
  have hN := lt64 t
  by_cases h0 : t.val % 64 = 0
  · have h1 : ¬t.val % 64 = 63 := by omega
    rw [outsAt0_A m c t h0 h1]; dsimp only
    exact hiddenTile_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 64 = 63
    · rw [outsAt0_C m c t h0 h1]; dsimp only
      exact hiddenTile_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _
    · rw [outsAt0_B m c t h0 h1]; dsimp only
      exact hiddenTile_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) _

/-- What point t writes back to the first output is block t of the forward pass. -/
theorem hidden_flushed (c : Dev nD) (t : Fin cfg0.N) :
    (dats m 0 c).flushed 2 t = ((cfg0.win 2).blk t).view.read (Elt Ideal) (Hebbian.hidden (X0 m c) (W0 m c)) := by
  rw [Value.flushed2, hiddenBuf_eq]
  funext y
  show k0_pay3 (F := Ideal) (iblk m c 0 t) (iblk m c 1 t) y
    = Hebbian.hidden (X0 m c) (W0 m c) (((cfg0.win 2).blk t).view.emb y)
  refine (congrArg (k0_pay3 (F := Ideal) (iblk m c 0 t) (iblk m c 1 t)) (eq_ix2 y)).trans ?_
  refine (hiddenTile_eq m c t (y 0) (y 1)).trans ?_
  refine congrArg (Hebbian.hidden (X0 m c) (W0 m c)) (funext fun a => Fin.ext ?_)
  obtain ⟨-, -, -, -, e4, e5, -⟩ := idx_facts t
  match a with
  | ⟨0, _⟩ => show 512 * t.val + (y 0).val = win0_2.index t (0 : Fin 2) * 512 + 1 * (y 0).val; omega
  | ⟨1, _⟩ => show (y 1).val = win0_2.index t (1 : Fin 2) * 1024 + 1 * (y 1).val; omega

/-- An index of the first output is in point t's block iff its row is one of the tile's. -/
theorem mem_hiddenBlk (t : Fin cfg0.N) (i : S32768x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_0).slice (win0_2.rect t)).set ↔ _
  rw [View.set_slice_whole, Rect.mem_set_unit]
  exact Iff.rfl

/-- Every row of the first output lies in a tile: row r in tile r / 512. -/
theorem hidden_cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  let t : Fin cfg0.N := ⟨(i 0).val / 512, by rw [show cfg0.N = 64 from N_0]; omega⟩
  refine ⟨t, flush0_2 t, ?_⟩
  rw [mem_hiddenBlk]
  obtain ⟨-, -, -, -, e4, e5, -⟩ := idx_facts t
  have ht : t.val = (i 0).val / 512 := rfl
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the run the first output holds the forward pass of the launch arrays. -/
theorem hidden_final (c : Dev nD) : (dats m 0 c).arrAt 2 cfg0.N = Hebbian.hidden (X0 m c) (W0 m c) :=
  (dats m 0 c).arrAt_eq_of_cover 2 (Hebbian.hidden (X0 m c) (W0 m c)) (fun t _ => hidden_flushed m c t) hidden_cover

end Cert.KernelIdeal.Hebb

end
-- ==== Proof.TileSum.lean ====
/-
  A sum over a batch axis cut into equal tiles.

  If the T·P rows of a batch are visited tile by tile, P consecutive rows at a time, then adding up each tile's partial
  sum, tile after tile, gives the sum over all rows: row b is row (b mod P) of tile (b div P). Only associativity and
  commutativity of the addition are used, so the statement holds in any commutative additive monoid — in particular on
  the extended reals, infinities included.
-/
import Mathlib.Algebra.BigOperators.Fin
import Mathlib.Algebra.BigOperators.Intervals

open scoped BigOperators

namespace TileSum

variable {β : Type*} [AddCommMonoid β]

/-- Tile by tile over `Finset.range`: the first `T` tiles of `P` rows are the first `T * P` rows. -/
theorem range_tiles (P : ℕ) (g : ℕ → β) :
    ∀ T : ℕ, ∑ s ∈ Finset.range T, ∑ p ∈ Finset.range P, g (P * s + p) = ∑ b ∈ Finset.range (T * P), g b
  | 0 => by simp
  | T + 1 => by
    rw [Finset.sum_range_succ, range_tiles P g T, Nat.succ_mul, Finset.sum_range_add, Nat.mul_comm P T]

/-- The same with each tile's rows and the whole batch indexed by `Fin`: the form a blocked matrix product's partial
    sums and the unblocked product's sum come in. -/
theorem fin_tiles (T P N : ℕ) (hN : T * P = N) (g : ℕ → β) :
    ∑ s ∈ Finset.range T, ∑ p : Fin P, g (P * s + p.val) = ∑ b : Fin N, g b.val := by
  subst hN
  rw [← Finset.sum_range (fun b => g b), ← range_tiles P g T]
  exact Finset.sum_congr rfl fun s _ => (Finset.sum_range (fun p => g (P * s + p))).symm

end TileSum
-- ==== Proof.AccValue.lean ====
/-
  The second output: the accumulated correlation, scaled, added to the weights and clipped.

  The kernel keeps a 1024 × 1024 accumulator across the 64 grid points. Point t adds to it the tile's contribution

      tileAdd t (i, h) = Σ_{p < 512} X (512·t + p, i) · hidden (512·t + p, h),

  the first point adding it to zero. So after point n the accumulator is 0 + Σ_{s ≤ n} tileAdd s; after the last point
  the 64 tiles' contributions, 512 rows each, add up to the sum over all 32768 rows of the batch, `Hebbian.corr` — a
  regrouping of one finite sum, valid on the extended reals because their addition is commutative and associative.
  Only the last point stores the second output: the clip of W + scale · (the accumulator after that point's own update),
  which is `Hebbian.updated`; it is also the only point whose block is written back, and that block is the whole array.
-/
import proofs.«140127_j23871428232070_1_alg».proof.Proof.HiddenValue
import proofs.«140127_j23871428232070_1_alg».proof.Proof.TileSum

set_option maxRecDepth 16384

noncomputable section

namespace Cert.KernelIdeal.Hebb

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- A natural number as a row of the batch (rows are only ever named below 32768, where this is the number itself). -/
def rowMod (b : ℕ) : Fin 32768 := ⟨b % 32768, Nat.mod_lt _ (by decide)⟩

theorem rowMod_of_lt (b : ℕ) (h : b < 32768) : rowMod b = ⟨b, h⟩ := Fin.ext (Nat.mod_eq_of_lt h)

/-- Sample b's term of the correlation at entry j = (i, h): X (b, i) · hidden (b, h). -/
def term (c : Dev nD) (j : S1024x1024.Idx) (b : ℕ) : EReal :=
  X0 m c (ix2 (rowMod b) (j 0)) * Hebbian.hidden (X0 m c) (W0 m c) (ix2 (rowMod b) (j 1))

/-- Tile s's contribution to the correlation at entry j: its 512 samples' terms. -/
def tileAdd (c : Dev nD) (s : ℕ) (j : S1024x1024.Idx) : EReal := ∑ p : Fin 512, term m c j (512 * s + p.val)

/-- The accumulator's update at point t: what it held plus tile t's contribution. -/
theorem accTile_apply (c : Dev nD) (t : Fin cfg0.N) (acc : Vec Ideal S1024x1024 .f32) (j : S1024x1024.Idx) :
    k0_pay4 (F := Ideal) (iblk m c 0 t) (iblk m c 1 t) acc j = acc j + tileAdd m c t.val j := by
  refine (congrArg (k0_pay4 (F := Ideal) (iblk m c 0 t) (iblk m c 1 t) acc) (eq_ix2 j)).trans ?_
  refine (accUpdate_apply (iblk m c 0 t) (iblk m c 1 t) acc (j 0) (j 1)).trans ?_
  refine congrArg₂ (· + ·) (congrArg acc (eq_ix2 j).symm) (Finset.sum_congr rfl fun p _ => ?_)
  unfold term
  rw [rowMod_of_lt (512 * t.val + p.val) (by have := lt64 t; omega)]
  exact congrArg₂ (· * ·) (xTile_apply m c t p (j 0)) (hiddenTile_eq m c t p (j 1))

/-- The first point's step: zero plus tile 0's contribution, whatever the accumulator held before. -/
theorem sc_first (c : Dev nD) (h : 0 < cfg0.N) (acc : Vec Ideal S1024x1024 .f32) (j : S1024x1024.Idx) :
    Value.scAt0_0 m c 0 h acc j = 0 + tileAdd m c 0 j := by
  have h0 : 0 % 64 = 0 := rfl
  have h1 : ¬0 % 64 = 63 := by decide
  unfold Value.scAt0_0
  rw [dif_pos h0, dif_neg h1]
  refine (congrFun (acc_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N))) j).trans ?_
  refine (accTile_apply m c (⟨0, h⟩ : Fin cfg0.N) (k0_pay1 (F := Ideal)) j).trans ?_
  rw [reset_apply]

/-- Every later point's step: what the point before left plus the point's tile's contribution. -/
theorem sc_step (c : Dev nD) (n : ℕ) (h : n < cfg0.N) (acc : Vec Ideal S1024x1024 .f32) (j : S1024x1024.Idx) (hpos : 0 < n) :
    Value.scAt0_0 m c n h acc j = acc j + tileAdd m c n j := by
  have hN : n < 64 := lt_of_lt_of_eq h (show cfg0.N = 64 from N_0)
  have h0 : ¬n % 64 = 0 := by omega
  unfold Value.scAt0_0
  rw [dif_neg h0]
  by_cases h1 : n % 64 = 63
  · rw [dif_pos h1]
    refine (congrFun (acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) acc) j).trans ?_
    exact accTile_apply m c (⟨n, h⟩ : Fin cfg0.N) acc j
  · rw [dif_neg h1]
    refine (congrFun (acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) acc) j).trans ?_
    exact accTile_apply m c (⟨n, h⟩ : Fin cfg0.N) acc j

/-- The accumulator after point n: zero plus the contributions of tiles 0 … n. -/
theorem acc_after (c : Dev nD) (n : ℕ) (hn : n < cfg0.N) (j : S1024x1024.Idx) :
    (outsAt0 m c n hn).2.2 j = 0 + ∑ s ∈ Finset.range (n + 1), tileAdd m c (0 + s) j := by
  have hN : n < 64 := lt_of_lt_of_eq hn (show cfg0.N = 64 from N_0)
  rw [Value.soutsAt0_0_sweep m c n hn]
  exact Pipeline.accAt_add_apply (β := EReal)
    (fun n h => Value.scAt0_0 m c n h (VS0_0.read (Elt Ideal) VS0_0.junk)) (Value.scAt0_0 m c)
    (fun _ => 0) (tileAdd m c) 0 63
    (fun h i => sc_first m c h _ i) (fun n h acc i hb _ => sc_step m c n h acc i hb) n (by omega) _ j

/-- The 64 tiles' contributions are the correlation over the whole batch. -/
theorem tiles_total (c : Dev nD) (j : S1024x1024.Idx) :
    ∑ s ∈ Finset.range 64, tileAdd m c (0 + s) j = Hebbian.corr (X0 m c) (W0 m c) j := by
  simp only [Nat.zero_add]
  unfold tileAdd
  rw [TileSum.fin_tiles 64 512 32768 (by norm_num) (term m c j)]
  unfold Hebbian.corr term
  exact Finset.sum_congr rfl fun b _ => by rw [rowMod_of_lt b.val b.isLt]

/-- At the last point the second output's buffer is the clip over the accumulator as that point leaves it. -/
theorem updatedBuf_eq (c : Dev nD) (t : Fin cfg0.N) (h0 : ¬t.val % 64 = 0) (h1 : t.val % 64 = 63) :
    (outsAt0 m c t.val t.isLt).2.1 = k0_pay5 (F := Ideal) (iblk m c 1 t) ((outsAt0 m c t.val t.isLt).2.2) := by
  rw [outsAt0_C m c t h0 h1]; dsimp only
  refine (newWeights_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _).trans ?_
  exact congrArg (k0_pay5 (F := Ideal) (iblk m c 1 t)) (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _).symm

/-- The one point that writes the second output back writes the clipped update of the launch arrays. -/
theorem updated_flushed (c : Dev nD) (t : Fin cfg0.N) (hf : (cfg0.win 3).flush t = true) :
    (dats m 0 c).flushed 3 t = ((cfg0.win 3).blk t).view.read (Elt Ideal) (Hebbian.updated (X0 m c) (W0 m c)) := by
  have h1 : t.val % 64 = 63 := (flush0_3 t).mp hf
  have hN := lt64 t
  have h0 : ¬t.val % 64 = 0 := by omega
  rw [Value.flushed3, updatedBuf_eq m c t h0 h1]
  funext y
  show k0_pay5 (F := Ideal) (iblk m c 1 t) ((outsAt0 m c t.val t.isLt).2.2) y
    = Hebbian.updated (X0 m c) (W0 m c) (((cfg0.win 3).blk t).view.emb y)
  have hemb : ((cfg0.win 3).blk t).view.emb y = y := funext fun a => Fin.ext (by
    obtain ⟨-, -, -, -, -, -, e6, e7⟩ := idx_facts t
    match a with
    | ⟨0, _⟩ => show win0_3.index t (0 : Fin 2) * 1024 + 1 * (y 0).val = (y 0).val; omega
    | ⟨1, _⟩ => show win0_3.index t (1 : Fin 2) * 1024 + 1 * (y 1).val = (y 1).val; omega)
  have hacc : (outsAt0 m c t.val t.isLt).2.2 y = Hebbian.corr (X0 m c) (W0 m c) y := by
    have e : t.val + 1 = 64 := by omega
    rw [acc_after m c t.val t.isLt y, e, tiles_total, zero_add]
  rw [hemb]
  refine (clip_apply (iblk m c 1 t) ((outsAt0 m c t.val t.isLt).2.2) y).trans ?_
  show _ = Hebbian.clipStep (W0 m c y) (Hebbian.corr (X0 m c) (W0 m c) y)
  unfold Hebbian.clipStep
  rw [hacc, congrFun (wTile_eq m c t) y]

/-- The last point's block of the second output is the whole array. -/
theorem updated_cover (j : S1024x1024.Idx) :
    ∃ t : Fin cfg0.N, (cfg0.win 3).flush t = true ∧ j ∈ ((cfg0.win 3).blk t).view.set := by
  have hj0 : (j 0).val < 1024 := (j 0).isLt
  have hj1 : (j 1).val < 1024 := (j 1).isLt
  let t : Fin cfg0.N := ⟨63, by rw [show cfg0.N = 64 from N_0]; omega⟩
  refine ⟨t, (flush0_3 t).mpr rfl, ?_⟩
  show j ∈ ((View.whole main_v0_1).slice (win0_3.rect t)).set
  rw [View.set_slice_whole, Rect.mem_set_unit]
  obtain ⟨-, -, -, -, -, -, e6, e7⟩ := idx_facts t
  intro a
  match a with
  | ⟨0, _⟩ => show win0_3.index t (0 : Fin 2) * 1024 ≤ (j 0).val ∧ (j 0).val < win0_3.index t (0 : Fin 2) * 1024 + 1024; omega
  | ⟨1, _⟩ => show win0_3.index t (1 : Fin 2) * 1024 ≤ (j 1).val ∧ (j 1).val < win0_3.index t (1 : Fin 2) * 1024 + 1024; omega

/-- After the run the second output holds the clipped update of the launch arrays. -/
theorem updated_final (c : Dev nD) : (dats m 0 c).arrAt 3 cfg0.N = Hebbian.updated (X0 m c) (W0 m c) :=
  (dats m 0 c).arrAt_eq_of_cover 3 (Hebbian.updated (X0 m c) (W0 m c)) (fun t hf => updated_flushed m c t hf) updated_cover

/-- The kernel's run, read: both outputs at their functions of the launch arrays, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = Hebbian.hidden (X0 m c) (W0 m c)
      ∧ r.2.mem ((c : Thread nD τ).loc main_v0_1) = Hebbian.updated (X0 m c) (W0 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (hidden_final m c), (h c).2.1.trans (updated_final m c), (h c).2.2⟩)
    (Value.run_blocks m ρ)

end Cert.KernelIdeal.Hebb

end
-- ==== Proof.RefSpec.lean ====
/-
  The reference computes `Hebbian.hidden` and `Hebbian.updated`.

  Its first result is tanh of one matrix product, read entry by entry as a sum over the contracted axis. Its second result
  multiplies the TRANSPOSED batch with the first result — entry (i, h) sums X (b, i) · hidden (b, h) over all 32768 samples
  b — scales it, adds the weights, and clips with a maximum against -1 followed by a minimum against 1.
-/
import proofs.«140127_j23871428232070_1_alg».proof.Proof.Gen.ReferenceIdeal.Read
import proofs.«140127_j23871428232070_1_alg».proof.Proof.Spec

noncomputable section

namespace Cert.ReferenceIdeal.RefSpec

open Cert.ReferenceIdeal Cert.ReferenceIdeal.Read Idealize.ShloMosaic Idealize.ShloMosaic.ValueIdx

/-- Entry (b, k) of the batch, for the product's left operand at output entry i. -/
theorem lidx_v0 (i : S32768x1024.Idx) (k : Fin 1024) : lidx_main_v0 i k = ix2 (i 0) k :=
  funext fun a => by match a with | ⟨0, _⟩ => rfl | ⟨1, _⟩ => rfl
theorem ridx_v0 (i : S32768x1024.Idx) (k : Fin 1024) : ridx_main_v0 i k = ix2 k (i 1) :=
  funext fun a => by match a with | ⟨0, _⟩ => rfl | ⟨1, _⟩ => rfl

/-- The reference's first result is the forward pass. -/
theorem hidden_eq (X : S32768x1024.Idx → EReal) (W : S1024x1024.Idx → EReal) :
    val_main_v1 (F := Ideal) X W = Hebbian.hidden X W := by
  funext i
  rw [val_main_v1_apply, val_main_v0_apply, Ideal.hostUnary_tanh_def]
  unfold Hebbian.hidden
  exact congrArg Ideal.tanh (Finset.sum_congr rfl fun k _ => by rw [lidx_v0, ridx_v0]; rfl)

/-- The transposed batch at (i, b) is the batch at (b, i). -/
theorem xT_apply (X : S32768x1024.Idx → EReal) (j : S1024x1024.Idx) (b : Fin 32768) :
    val_main_v2 (F := Ideal) X (lidx_main_v3 j b) = X (ix2 b (j 0)) := by
  rw [val_main_v2_apply]
  exact congrArg X (funext fun a => by match a with | ⟨0, _⟩ => rfl | ⟨1, _⟩ => rfl)
theorem ridx_v3 (j : S1024x1024.Idx) (b : Fin 32768) : ridx_main_v3 j b = ix2 b (j 1) :=
  funext fun a => by match a with | ⟨0, _⟩ => rfl | ⟨1, _⟩ => rfl

/-- The reference's second product is the correlation over the whole batch. -/
theorem corr_eq (X : S32768x1024.Idx → EReal) (W : S1024x1024.Idx → EReal) (j : S1024x1024.Idx) :
    val_main_v3 (F := Ideal) X W j = Hebbian.corr X W j := by
  rw [val_main_v3_apply]
  unfold Hebbian.corr
  exact Finset.sum_congr rfl fun b _ => by rw [xT_apply, ridx_v3, hidden_eq]; rfl

/-- The reference's second result is the clipped update. -/
theorem updated_eq (X : S32768x1024.Idx → EReal) (W : S1024x1024.Idx → EReal) :
    val_main_v7 (F := Ideal) X W = Hebbian.updated X W := by
  funext j
  rw [val_main_v7_apply, val_main_call0_v4_apply, val_main_call0_v3_apply, val_main_cst_1_apply,
    val_main_call0_v2_apply, val_main_call0_v1_apply, val_main_call0_v0_apply, val_main_cst_0_apply,
    val_main_v6_apply, val_main_v5_apply, val_main_v4_apply, val_main_cst_apply, corr_eq]
  rfl

end Cert.ReferenceIdeal.RefSpec

end
-- ==== Proof.lean ====
/-
  A Hebbian learning step: the kernel against its reference, over the extended reals.

  For a batch X [32768, 1024] and weights W [1024, 1024] both programs return

      hidden  = tanh (X · W)                                    and
      updated = clip (W + scale · Xᵀ · hidden) to [-1, 1],

  with the same three float literals (the scale, -1 and 1) on both sides. The reference forms the two matrix products
  whole. The kernel walks the batch in 64 tiles of 512 rows: at tile t it writes tanh (x_t · W) to the rows of the first
  result, and adds x_tᵀ · hidden_t to a 1024 × 1024 accumulator that it zeroes at the first tile; after the last tile it
  stores the clip of W + scale · accumulator as the second result.

  At the ideal instance a change of float format is the identity and a matrix product is the plain sum of products over
  the contracted axis, so the only difference is the grouping of the second product's sum over the batch: tile by tile
  from zero, against all rows at once. Addition of extended reals is commutative and associative, so the two groupings
  agree (TileSum) whether or not the inputs are finite; the precondition is not used.

  Spec states the two results as functions of X and W; RefSpec shows the reference's results are those functions; Pieces,
  Payloads, HiddenValue and AccValue show the kernel's are. The three frame claims are the generated frames and the
  reference's generated run; the idealization rewrote nothing, so there is nothing to preserve.
-/
import proofs.«140127_j23871428232070_1_alg».proof.Defs
import proofs.«140127_j23871428232070_1_alg».proof.Proof.Gen.Kernel
import proofs.«140127_j23871428232070_1_alg».proof.Proof.Gen.Kernel.Skeleton
import proofs.«140127_j23871428232070_1_alg».proof.Proof.Gen.Kernel.Launch
import proofs.«140127_j23871428232070_1_alg».proof.Proof.Gen.Kernel.Points
import proofs.«140127_j23871428232070_1_alg».proof.Proof.Gen.Kernel.Frame
import proofs.«140127_j23871428232070_1_alg».proof.Proof.Gen.KernelIdeal
import proofs.«140127_j23871428232070_1_alg».proof.Proof.Gen.KernelIdeal.Skeleton
import proofs.«140127_j23871428232070_1_alg».proof.Proof.Gen.KernelIdeal.Launch
import proofs.«140127_j23871428232070_1_alg».proof.Proof.Gen.KernelIdeal.Points
import proofs.«140127_j23871428232070_1_alg».proof.Proof.Gen.KernelIdeal.Frame
import proofs.«140127_j23871428232070_1_alg».proof.Proof.Gen.ReferenceIdeal
import proofs.«140127_j23871428232070_1_alg».proof.Proof.Gen.Pre_finite_inputs
import proofs.«140127_j23871428232070_1_alg».proof.Proof.Gen.KernelIdeal.Value
import proofs.«140127_j23871428232070_1_alg».proof.Proof.Gen.ReferenceIdeal.Run
import proofs.«140127_j23871428232070_1_alg».proof.Proof.Gen.ReferenceIdeal.Read
import proofs.«140127_j23871428232070_1_alg».proof.Proof.AccValue
import proofs.«140127_j23871428232070_1_alg».proof.Proof.RefSpec
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on X and W both programs end with `Hebbian.hidden X W` and `Hebbian.updated X W`. -/
theorem algebraic : Cert.algebraic_KernelIdeal_ReferenceIdeal := by
  intro m ρ m' ρ' _ hagree
  refine ⟨fun c => Hebbian.hidden (Cert.KernelIdeal.Hebb.X0 m c) (Cert.KernelIdeal.Hebb.W0 m c),
    fun c => Hebbian.updated (Cert.KernelIdeal.Hebb.X0 m c) (Cert.KernelIdeal.Hebb.W0 m c),
    Cert.KernelIdeal.Hebb.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2]
    exact Cert.ReferenceIdeal.RefSpec.hidden_eq _ _
  · rw [(hagree c).1, (hagree c).2]
    exact Cert.ReferenceIdeal.RefSpec.updated_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
